-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S1x2048 : Shape := ⟨2, ![1, 2048]⟩
abbrev S2048 : Shape := ⟨1, ![2048]⟩
abbrev S2x1 : Shape := ⟨2, ![2, 1]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_
  bcast_S_S2x1 : S_.BroadcastsInDim S2x1 (![] : Fin 0 → Fin S2x1.rank)
  reducesTo_S2x1_S_d0_1 : S2x1.ReducesTo [0, 1] S_

variable [Facts]

def fn_part1 {F : FTy → Type} [FloatOps F] (main_arg4 : FVec F S2x1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2x1 .f32 := Host.absf main_arg4
  let main_cst_6 : FVec F S_ .f32 := constant S_ .f32 0x7F800000#32
  let main_v20 : FVec F S2x1 .f32 := broadcastInDim S2x1 ![] bcast_S_S2x1 main_cst_6
  let main_v21 : IVec S2x1 1 := cmpf .olt main_v19 main_v20
  let main_c_7 : IVec S_ 1 := constantI S_ 1 1#1
  let main_v22 : IVec S_ 1 := (fun x v => Host.reduce IntOp.andi x v reducesTo_S2x1_S_d0_1 h_S_) main_v21 main_c_7
  let main_v23 : IVec S_ 1 := andi main_v18 main_v22
  main_v23

def fn {F : FTy → Type} [FloatOps F] (main_arg0 : FVec F S8x2048x2048 .f32) (main_arg1 : FVec F S1x2048 .f32) (main_arg2 : FVec F S1x2048 .f32) (main_arg3 : FVec F S2048 .f32) (main_arg4 : FVec F S2x1 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S8x2048x2048 : Shape := ⟨3, ![8, 2048, 2048]⟩
abbrev S1x2048 : Shape := ⟨2, ![1, 2048]⟩
abbrev S2048 : Shape := ⟨1, ![2048]⟩
abbrev S2x1 : Shape := ⟨2, ![2, 1]⟩
abbrev S2048x1 : Shape := ⟨2, ![2048, 1]⟩
abbrev S2048x2048 : Shape := ⟨2, ![2048, 2048]⟩
abbrev S1x1 : Shape := ⟨2, ![1, 1]⟩
abbrev S_ : Shape := ⟨0, ![]⟩
abbrev S16384x2048 : Shape := ⟨2, ![16384, 2048]⟩
abbrev S512x2048 : Shape := ⟨2, ![512, 2048]⟩

abbrev nBuf : Space → Nat
  | .hbm => 53
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2x1, .f32⟩
  | .hbm, ⟨5, _⟩ => ⟨S2048, .f32⟩
  | .hbm, ⟨6, _⟩ => ⟨S2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x2048, .i32⟩
  | .hbm, ⟨37, _⟩ => ⟨S2048x2048, .i32⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S2048x1, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_call1_v0 : Ref sig .tc := ⟨.hbm, 32, rfl⟩
abbrev main_v20 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_c : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_0 : Ref sig .tc := ⟨.hbm, 43, rfl⟩
abbrev main_call2_call0_v0 : Ref sig .tc := ⟨.hbm, 44, rfl⟩
abbrev main_call2_call0_v1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x2048_S2048 : S1x2048.ShapeCasts S2048
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  slices_S2x1_S1x1_1_0 : S2x1.Slices ![1, 0] S1x1
  shapeCasts_S1x1_S_ : S1x1.ShapeCasts S_
  bcast_S_S2048x2048 : S_.BroadcastsInDim S2048x2048 (![] : Fin 0 → Fin S2048x2048.rank)
  pads_S2048_S2048_000 : S2048.Pads (![0] : Fin 1 → Nat) ![0] ![0] S2048
  h_S_ : 0 < S_.numel
  bitsLt_bf16_f32 : FTy.bits .bf16 < FTy.bits .f32
  shapeCasts_S8x2048x2048_S16384x2048 : S8x2048x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S8x2048x2048 : S16384x2048.ShapeCasts S8x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v24) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S1x2048 : Shape := ⟨2, ![1, 2048]⟩
abbrev S2048 : Shape := ⟨1, ![2048]⟩
abbrev S2x1 : Shape := ⟨2, ![2, 1]⟩
abbrev S2048x1 : Shape := ⟨2, ![2048, 1]⟩
abbrev S2048x2048 : Shape := ⟨2, ![2048, 2048]⟩
abbrev S1x1 : Shape := ⟨2, ![1, 1]⟩
abbrev S_ : Shape := ⟨0, ![]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2x1, .f32⟩
  | .hbm, ⟨5, _⟩ => ⟨S2048, .f32⟩
  | .hbm, ⟨6, _⟩ => ⟨S2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x2048, .i32⟩
  | .hbm, ⟨37, _⟩ => ⟨S2048x2048, .i32⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S2048x1, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_call1_v0 : Ref sig .tc := ⟨.hbm, 32, rfl⟩
abbrev main_v20 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_c : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_0 : Ref sig .tc := ⟨.hbm, 43, rfl⟩
abbrev main_call2_call0_v0 : Ref sig .tc := ⟨.hbm, 44, rfl⟩
abbrev main_call2_call0_v1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩

abbrev nD : Nat := 1
abbrev τ : Topo := Topo.v7x

variable {F : FTy → Type} [FloatOps F]

class Facts₀ : Prop where
  shapeCasts_S1x2048_S2048 : S1x2048.ShapeCasts S2048
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  slices_S2x1_S1x1_1_0 : S2x1.Slices ![1, 0] S1x1
  shapeCasts_S1x1_S_ : S1x1.ShapeCasts S_
  bcast_S_S2048x2048 : S_.BroadcastsInDim S2048x2048 (![] : Fin 0 → Fin S2048x2048.rank)
  pads_S2048_S2048_000 : S2048.Pads (![0] : Fin 1 → Nat) ![0] ![0] S2048
  h_S_ : 0 < S_.numel
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_0_01_1_n_n_wf : DotDims.WF S8x2048x2048 S2048x2048 S8x2048x2048 [2] [0] [0, 1] [1] [] []

variable [Facts₀]

def dot_S8x2048x2048_S2048x2048_S8x2048x2048_2_0_01_1_n_n : DotDims S8x2048x2048 S2048x2048 S8x2048x2048 where
  lhsContracting := [2]
  rhsContracting := [0]
  lhsNonContracting := [0, 1]
  rhsNonContracting := [1]
  lhsBatch := []
  rhsBatch := []
  wf := dot_S8x2048x2048_S2048x2048_S8x2048x2048_2_0_01_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Tile.lean ====
/-
  One grid point's tile of the kernel, read at an entry over the extended reals.

  The body loads a block X of 512 rows of the flattened input, the whole matrix Mb (held in bf16, which over the extended
  reals is no change), and the bias row; it stores  X · Mb + bias row  broadcast over the 512 rows.  The product goes into
  a zero accumulator, so entry (p, q) of the stored tile is

      (Σ_s X(p, s) · Mb(s, q)) + biasRow(0, q).
-/
import proofs.«170594_j12481174962953_1_alg».proof.Proof.Gen.KernelIdeal.Skeleton
import proofs.«170594_j12481174962953_1_alg».proof.Proof.LibPlainProduct
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The printed dimension numbers are the plain rows-by-columns product's. -/
theorem dims_plain : dot_S512x2048_S2048x2048_S512x2048_1_0_0_1_n_n = DotDims.plain 512 2048 2048 := rfl

/-- The bias row broadcast over the tile's rows reads the row's entry in that column. -/
theorem biasRows_apply (v : FVec Ideal S1x2048 .f32) (h : S1x2048.Broadcasts S512x2048) (p : Fin 512) (q : Fin 2048) :
    broadcastTo S512x2048 v h (ix2 p q) = v (ix2 0 q) :=
  broadcastTo_apply v h (ix2 p q) (ix2 0 q) (fun a => by
    match a with
    | ⟨0, _⟩ => rfl
    | ⟨1, _⟩ => rfl)

/-- The stored tile at (p, q). -/
theorem tile_apply (x0 : Vec Ideal S512x2048 .f32) (x1 : Vec Ideal S2048x2048 .bf16) (x2 : Vec Ideal S1x2048 .f32)
    (p : Fin 512) (q : Fin 2048) :
    k0_pay1 (F := Ideal) x0 x1 x2 (ix2 p q) = (∑ s : Fin 2048, x0 (ix2 p s) * x1 (ix2 s q)) + x2 (ix2 0 q) := by
  unfold k0_pay1
  simp only [shapeCast_self]
  refine (addf_apply _ _ (ix2 p q)).trans ?_
  refine congrArg₂ (· + ·) ?_ (biasRows_apply x2 _ p q)
  exact Cert.PlainProduct.matmul_zero_apply (M := 512) (K := 2048) (N := 2048) none _ x1 p q

end Cert.KernelIdeal.Tile

end
-- ==== Proof.Mix.lean ====
/-
  The result both programs compute, as ONE function of the input x (shape [8, 2048, 2048]), a mixing matrix M
  (shape [2048, 2048], of any float format) and a bias (shape [2048]), over the extended reals:

      out(b, e, t) = (Σ_s  x(b, e, s) · M(s, t)) + bias(t).

  Two arrangements of it are joined here.  The host reference contracts the last axis of x with the first axis of M and
  adds the bias broadcast along the last axis.  The kernel works on the flattened layout: x as 16384 rows of length
  2048 (row r = 2048·b + e), the bias as one row, and the result flattened back; on that layout the same entry is
  (Σ_s X(r, s) · M(s, t)) + biasRow(0, t).  Only the re-indexing of rows changes; the sum is the same sum.
-/
import Idealize.ShloMosaic.Lib.ValueIdx
import Idealize.ShloMosaic.Lib.Pipeline.Value
import Idealize.ShloMosaic.PureOps.Ideal.Laws

noncomputable section

namespace Cert.Mix

open Idealize.ShloMosaic Idealize.ShloMosaic.ValueIdx

abbrev S3 : Shape := ⟨3, ![8, 2048, 2048]⟩
abbrev Sflat : Shape := ⟨2, ![16384, 2048]⟩
abbrev Ssq : Shape := ⟨2, ![2048, 2048]⟩
abbrev Sv : Shape := ⟨1, ![2048]⟩
abbrev Srow : Shape := ⟨2, ![1, 2048]⟩
abbrev S113 : Shape := ⟨3, ![1, 1, 2048]⟩

variable {φ : FTy}

/-- The result on the [8, 2048, 2048] layout. -/
def mix (x : FVec Ideal S3 .f32) (M : FVec Ideal Ssq φ) (bias : FVec Ideal Sv .f32) : FVec Ideal S3 .f32 :=
  fun i => (∑ s : Fin 2048, x (ix3 (i 0) (i 1) s) * M (ix2 s (i 2))) + bias (ix1 (i 2))

/-- The same on the flattened layout: rows times the matrix, plus the bias row. -/
def flat (X : FVec Ideal Sflat .f32) (M : FVec Ideal Ssq φ) (biasRow : FVec Ideal Srow .f32) : FVec Ideal Sflat .f32 :=
  fun i => (∑ s : Fin 2048, X (ix2 (i 0) s) * M (ix2 s (i 1))) + biasRow (ix2 0 (i 1))

theorem flat_apply (X : FVec Ideal Sflat .f32) (M : FVec Ideal Ssq φ) (biasRow : FVec Ideal Srow .f32)
    (r : Fin 16384) (t : Fin 2048) :
    flat X M biasRow (ix2 r t) = (∑ s : Fin 2048, X (ix2 r s) * M (ix2 s t)) + biasRow (ix2 0 t) := rfl

theorem mix_apply (x : FVec Ideal S3 .f32) (M : FVec Ideal Ssq φ) (bias : FVec Ideal Sv .f32)
    (b : Fin 8) (e : Fin 2048) (t : Fin 2048) :
    mix x M bias (ix3 b e t) = (∑ s : Fin 2048, x (ix3 b e s) * M (ix2 s t)) + bias (ix1 t) := rfl

/-- A change of the matrix's float format does not change the result: over the extended reals it is the identity. -/
theorem mix_truncf (x : FVec Ideal S3 .f32) (M : FVec Ideal Ssq .f32) (bias : FVec Ideal Sv .f32)
    (h : FTy.bits .bf16 < FTy.bits .f32) :
    mix x (truncf .bf16 M h) bias = mix x M bias := rfl

/-- Row r = 2048·b + e of the flattened input is row (b, e) of the input. -/
theorem flatten_apply (x : FVec Ideal S3 .f32) (h : S3.ShapeCasts Sflat) (b : Fin 8) (e : Fin 2048) (s : Fin 2048)
    (r : Fin 16384) (hr : r.val = b.val * 2048 + e.val) :
    shapeCast Sflat x h (ix2 r s) = x (ix3 b e s) := by
  refine shapeCast_apply x h (ix2 r s) (ix3 b e s) ?_
  rw [Shape.rowMajor_val_three, Shape.rowMajor_val_two]
  show (b.val * 2048 + e.val) * 2048 + s.val = r.val * 2048 + s.val
  rw [hr]

/-- The bias as one row. -/
theorem biasRow_apply (bias : FVec Ideal Sv .f32) (h : Sv.ShapeCasts Srow) (t : Fin 2048) :
    shapeCast Srow bias h (ix2 0 t) = bias (ix1 t) := by
  refine shapeCast_apply bias h (ix2 0 t) (ix1 t) ?_
  rw [Shape.rowMajor_val_one, Shape.rowMajor_val_two]
  show t.val = 0 * 2048 + t.val
  omega

/-- THE KERNEL'S ARRANGEMENT: flatten the input and the bias, compute on rows, flatten back. -/
theorem unflatten (x : FVec Ideal S3 .f32) (M : FVec Ideal Ssq φ) (bias : FVec Ideal Sv .f32)
    (h1 : S3.ShapeCasts Sflat) (h2 : Sv.ShapeCasts Srow) (h3 : Sflat.ShapeCasts S3) :
    shapeCast S3 (flat (shapeCast Sflat x h1) M (shapeCast Srow bias h2)) h3 = mix x M bias := by
  funext i
  obtain ⟨b, e, t, rfl⟩ : ∃ (b : Fin 8) (e : Fin 2048) (t : Fin 2048), i = ix3 b e t := ⟨i 0, i 1, i 2, eq_ix3 i⟩
  have hlt : b.val * 2048 + e.val < 16384 := by have := b.isLt; have := e.isLt; omega
  have hcast : shapeCast S3 (flat (shapeCast Sflat x h1) M (shapeCast Srow bias h2)) h3 (ix3 b e t)
      = flat (shapeCast Sflat x h1) M (shapeCast Srow bias h2) (ix2 ⟨b.val * 2048 + e.val, hlt⟩ t) := by
    refine shapeCast_apply _ h3 (ix3 b e t) (ix2 ⟨b.val * 2048 + e.val, hlt⟩ t) ?_
    rw [Shape.rowMajor_val_three, Shape.rowMajor_val_two]
    rfl
  rw [hcast, flat_apply, mix_apply, biasRow_apply]
  refine congrArg (· + bias (ix1 t)) (Finset.sum_congr rfl fun s _ => ?_)
  rw [flatten_apply x h1 b e s ⟨b.val * 2048 + e.val, hlt⟩ rfl]

/-- THE REFERENCE'S ARRANGEMENT: the host's product plus the bias broadcast along the last axis.  The product is
    given by its entries (`hdot`), so that this module need not name the dimension numbers. -/
theorem host_arrangement (x : FVec Ideal S3 .f32) (M : FVec Ideal Ssq φ) (bias : FVec Ideal Sv .f32)
    (P : FVec Ideal S3 .f32)
    (hdot : ∀ (b : Fin 8) (e : Fin 2048) (t : Fin 2048), P (ix3 b e t) = ∑ s : Fin 2048, x (ix3 b e s) * M (ix2 s t))
    (h1 : Sv.BroadcastsInDim S113 (![2] : Fin 1 → Fin S113.rank))
    (h2 : S113.BroadcastsInDim S3 (![0, 1, 2] : Fin 3 → Fin S3.rank)) :
    addf P (broadcastInDim S3 ![0, 1, 2] h2 (broadcastInDim S113 ![2] h1 bias)) = mix x M bias := by
  funext i
  obtain ⟨b, e, t, rfl⟩ : ∃ (b : Fin 8) (e : Fin 2048) (t : Fin 2048), i = ix3 b e t := ⟨i 0, i 1, i 2, eq_ix3 i⟩
  rw [addf_apply, mix_apply, hdot]
  refine congrArg ((∑ s : Fin 2048, x (ix3 b e s) * M (ix2 s t)) + ·) ?_
  rw [broadcastInDim_apply ![0, 1, 2] h2 _ (ix3 b e t) (ix3 0 0 t) (fun a => by
        match a with
        | ⟨0, _⟩ => rfl
        | ⟨1, _⟩ => rfl
        | ⟨2, _⟩ => rfl),
    broadcastInDim_apply ![2] h1 bias (ix3 0 0 t) (ix1 t) (fun a => by
        match a with
        | ⟨0, _⟩ => rfl)]

end Cert.Mix

end
-- ==== Proof.Blocks.lean ====
/-
  From the kernel's tiles to its whole output array, over the extended reals.

  The output array has 16384 rows of 2048 entries.  Grid point t (of 32) loads rows 512·t … 512·t + 511 of the flattened
  input, the whole matrix and the whole bias row, and writes back rows 512·t … 512·t + 511 of the output.  By Tile.lean
  the tile's entry (p, q) is  (Σ_s X(p, s) · Mb(s, q)) + biasRow(0, q);  with X the input's rows at 512·t + p this is
  entry (512·t + p, q) of the one function  `Cert.Mix.flat`  of the three arrays the region finds.  The 32 row blocks
  tile the array (row r lies in block r / 512), so after the run the array IS that function.
-/
import proofs.«170594_j12481174962953_1_alg».proof.Proof.Gen.KernelIdeal.Frame
import proofs.«170594_j12481174962953_1_alg».proof.Proof.Tile
import proofs.«170594_j12481174962953_1_alg».proof.Proof.Mix
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The three arrays the region finds, at their literal types: the flattened input, the matrix, the bias row. -/
abbrev rowsArr (c : Dev nD) : Vec Ideal S16384x2048 .f32 := V m c main_v24
abbrev matArr (c : Dev nD) : Vec Ideal S2048x2048 .bf16 := V m c main_v23
abbrev biasArr (c : Dev nD) : Vec Ideal S1x2048 .f32 := V m c main_v25

/-- What the output array ends holding: rows times the matrix plus the bias row. -/
abbrev whole (c : Dev nD) : Vec Ideal S16384x2048 .f32 := Cert.Mix.flat (φ := .bf16) (rowsArr m c) (matArr m c) (biasArr m c)

theorem hz : (![0, 0] : Fin 2 → Nat) = fun _ => 0 := funext fun a => by fin_cases a <;> rfl

/-- The printed index maps, decided over the grid: the input's and the output's row block is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point t is rows 512·t … of the flattened input. -/
theorem rows_block (c : Dev nD) (t : Fin cfg0.N) (y : S512x2048.Idx) (i : S16384x2048.Idx)
    (h0 : (i 0).val = t.val * 512 + (y 0).val) (h1 : (i 1).val = (y 1).val) :
    (iblk m c 0 t : Vec Ideal S512x2048 .f32) y = rowsArr m c i := by
  obtain ⟨e0, e1, -⟩ := idx_facts t
  unfold iblk
  rw [View.read_apply]
  show V m c main_v24 _ = V m c main_v24 i
  refine congrArg (V m c main_v24) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

/-- The matrix window's block is the whole matrix at every point. -/
theorem mat_block (c : Dev nD) (t : Fin cfg0.N) (y : S2048x2048.Idx) :
    (iblk m c 1 t : Vec Ideal S2048x2048 .bf16) y = matArr m c y := by
  obtain ⟨-, -, e0, e1, -⟩ := idx_facts t
  unfold iblk
  rw [View.read_apply]
  show V m c main_v23 _ = V m c main_v23 y
  refine congrArg (V m c main_v23) (funext fun a => Fin.ext ?_)
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- The bias window's block is the whole bias row at every point. -/
theorem bias_block (c : Dev nD) (t : Fin cfg0.N) (y : S1x2048.Idx) :
    (iblk m c 2 t : Vec Ideal S1x2048 .f32) y = biasArr m c y := by
  obtain ⟨-, -, -, -, e0, e1, -⟩ := idx_facts t
  unfold iblk
  rw [View.read_apply]
  show V m c main_v25 _ = V m c main_v25 y
  refine congrArg (V m c main_v25) (funext fun a => Fin.ext ?_)
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- A tile whose loaded blocks are rows n·512 … of X, all of Mb and all of the bias row is rows n·512 … of the whole
    function: stated over variables, instantiated at a point's blocks below. -/
theorem tile_is_rows (X : Vec Ideal S16384x2048 .f32) (Mb : Vec Ideal S2048x2048 .bf16) (br : Vec Ideal S1x2048 .f32)
    (x0 : Vec Ideal S512x2048 .f32) (x1 : Vec Ideal S2048x2048 .bf16) (x2 : Vec Ideal S1x2048 .f32) (n : ℕ)
    (h0 : ∀ (y : S512x2048.Idx) (i : S16384x2048.Idx), (i 0).val = n * 512 + (y 0).val → (i 1).val = (y 1).val → x0 y = X i)
    (h1 : ∀ y, x1 y = Mb y) (h2 : ∀ y, x2 y = br y)
    (j : S512x2048.Idx) (i : S16384x2048.Idx) (hi0 : (i 0).val = n * 512 + (j 0).val) (hi1 : (i 1).val = (j 1).val) :
    k0_pay1 (F := Ideal) x0 x1 x2 j = Cert.Mix.flat (φ := .bf16) X Mb br i := by
  obtain ⟨p, q, rfl⟩ : ∃ (p : Fin 512) (q : Fin 2048), j = ix2 p q := ⟨j 0, j 1, eq_ix2 j⟩
  obtain ⟨r, t, rfl⟩ : ∃ (r : Fin 16384) (t : Fin 2048), i = ix2 r t := ⟨i 0, i 1, eq_ix2 i⟩
  have hq : t = q := Fin.ext hi1
  subst hq
  rw [Cert.KernelIdeal.Tile.tile_apply, Cert.Mix.flat_apply (φ := .bf16), h2]
  refine congrArg (· + br (ix2 0 t)) (Finset.sum_congr rfl fun s _ => ?_)
  rw [h0 (ix2 p s) (ix2 r s) hi0 rfl, h1]

/-- WHAT POINT t WRITES BACK is block t of the whole function. -/
theorem flushed_eq (c : Dev nD) (t : Fin cfg0.N) :
    (dats m 0 c).flushed 3 t = ((cfg0.win 3).blk t).view.read (Elt Ideal) (whole m c) := by
  obtain ⟨-, -, -, -, -, -, e0, e1⟩ := idx_facts t
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  funext j
  rw [View.read_apply]
  refine tile_is_rows (rowsArr m c) (matArr m c) (biasArr m c) (iblk m c 0 t) (iblk m c 1 t) (iblk m c 2 t) t.val
    (fun y i h0 h1 => rows_block m c t y i h0 h1) (fun y => mat_block m c t y) (fun y => bias_block m c t y) j _ ?_ ?_
  · show win0_3.index t (0 : Fin 2) * 512 + 1 * (j 0).val = t.val * 512 + (j 0).val; rw [e0]; omega
  · show win0_3.index t (1 : Fin 2) * 2048 + 1 * (j 1).val = (j 1).val; rw [e1]; omega

/-- An index of the array is in point t's block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v26).slice (win0_3.rect t)).set ↔ _
  rw [View.set_slice_whole, Rect.mem_set_unit]
  exact Iff.rfl

/-- The row blocks tile the array: row r lies in the block of point r / 512. -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  let t : Fin cfg0.N := ⟨(i 0).val / 512, by rw [hN]; omega⟩
  obtain ⟨-, -, -, -, -, -, e0, e1⟩ := idx_facts t
  refine ⟨t, flush0_3 t, ?_⟩
  rw [mem_blk]
  intro a
  have ht : t.val = (i 0).val / 512 := rfl
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 2048 ≤ (i 1).val ∧ (i 1).val < win0_3.index t (1 : Fin 2) * 2048 + 2048; rw [e1]; omega

/-- THE OUTPUT ARRAY after the run is the whole function of the arrays the region finds. -/
theorem final (c : Dev nD) : (dats m 0 c).arrAt 3 cfg0.N = whole m c :=
  (dats m 0 c).arrAt_eq_of_cover 3 (whole m c) (fun t _ => flushed_eq m c t) cover

end Cert.KernelIdeal.Blocks

end
-- ==== Proof.DecayMatrix.lean ====
/-
  The mixing matrix both programs build on the host before their product, as ONE function of three argument arrays.

  From a row of weights w (shape [1, S]), a row of diagonal weights u (shape [1, S]) and a column of two decay values
  (shape [2, 1]), with S = 2048 and d the second decay value clipped into [0.9, 1.0]  (d = min(1, max(0.9, value))):

      M(i, j) = (if j - i > 0 then w(i) · d ^ (j - i) else 0)  +  (if i = j then u(i) else 0).

  The strict upper triangle decays away from the diagonal, the diagonal carries u, the strict lower triangle is zero.
  Nothing below ever opens this function: the two programs apply the same operations in the same order to the same
  arguments, and that is all the certificate uses.  It is stated at any float instance.
-/
import Idealize.ShloMosaic.PureOps

noncomputable section

namespace Cert.DecayMatrix

open Idealize.ShloMosaic

abbrev Sc : Shape := ⟨0, ![]⟩
abbrev S11 : Shape := ⟨2, ![1, 1]⟩
abbrev S21 : Shape := ⟨2, ![2, 1]⟩
abbrev Sv : Shape := ⟨1, ![2048]⟩
abbrev Srow : Shape := ⟨2, ![1, 2048]⟩
abbrev Scol : Shape := ⟨2, ![2048, 1]⟩
abbrev Ssq : Shape := ⟨2, ![2048, 2048]⟩

theorem row_to_vec : Srow.ShapeCasts Sv := by decide
theorem vec_as_row : Sv.BroadcastsInDim Srow (![1] : Fin 1 → Fin Srow.rank) := by decide
theorem vec_as_col : Sv.BroadcastsInDim Scol (![0] : Fin 1 → Fin Scol.rank) := by decide
theorem row_to_sq : Srow.BroadcastsInDim Ssq (![0, 1] : Fin 2 → Fin Ssq.rank) := by decide
theorem col_to_sq : Scol.BroadcastsInDim Ssq (![0, 1] : Fin 2 → Fin Ssq.rank) := by decide
theorem second_value : S21.Slices ![1, 0] S11 := by decide
theorem one_to_scalar : S11.ShapeCasts Sc := by decide
theorem scalar_to_sq : Sc.BroadcastsInDim Ssq (![] : Fin 0 → Fin Ssq.rank) := by decide
theorem no_padding : Sv.Pads (![0] : Fin 1 → Nat) ![0] ![0] Sv := by decide
theorem scalar_pos : 0 < Sc.numel := by decide

variable {F : FTy → Type} [FloatOps F]

/-- j - i on the [S, S] grid, as 32-bit words: the column number less the row number. -/
def colLessRow :=
  subi
    (broadcastInDim Ssq ![0, 1] row_to_sq (broadcastInDim Srow ![1] vec_as_row (iotaInDim Sv 32 0)))
    (broadcastInDim Ssq ![0, 1] col_to_sq (broadcastInDim Scol ![0] vec_as_col (iotaInDim Sv 32 0)))

/-- The decay d: the second of the two decay values, clipped into [0.9, 1.0]. -/
def decay (dv : FVec F S21 .f32) : FVec F Sc .f32 :=
  minimumf (id (constant Sc .f32 0x3F800000#32))
    (maximumf (id (constant Sc .f32 0x3F666666#32))
      (shapeCast Sc (extractStridedSlice S11 ![1, 0] dv second_value) one_to_scalar))

/-- The strict upper triangle: w(i) · d ^ (j - i) where j - i > 0, zero elsewhere. -/
def upper (w : FVec F Srow .f32) (dv : FVec F S21 .f32) : FVec F Ssq .f32 :=
  select
    (cmpi .sgt colLessRow (broadcastInDim Ssq ![] scalar_to_sq (constantI Sc 32 0#32)))
    (mulf
      (broadcastInDim Ssq ![0, 1] col_to_sq (broadcastInDim Scol ![0] vec_as_col (shapeCast Sv w row_to_vec)))
      (Host.powf (broadcastInDim Ssq ![] scalar_to_sq (decay dv)) (sitofp .f32 colLessRow)))
    (broadcastInDim Ssq ![] scalar_to_sq (constant Sc .f32 0x00000000#32))

/-- The diagonal: u(i) where the row number equals the column number, zero elsewhere. -/
def diagonal (u : FVec F Srow .f32) : FVec F Ssq .f32 :=
  select
    (cmpi .eq
      (addi (iotaInDim Ssq 32 0) (broadcastInDim Ssq ![] scalar_to_sq (constantI Sc 32 0#32)))
      (iotaInDim Ssq 32 1))
    (broadcastInDim Ssq ![0, 1] col_to_sq
      (broadcastInDim Scol ![0] vec_as_col
        (pad Sv ![0] ![0] ![0] (shapeCast Sv u row_to_vec) (constant Sc .f32 0x00000000#32) no_padding scalar_pos)))
    (broadcastInDim Ssq ![] scalar_to_sq (constant Sc .f32 0x00000000#32))

/-- The mixing matrix: the decaying strict upper triangle plus the diagonal. -/
def matrix (w u : FVec F Srow .f32) (dv : FVec F S21 .f32) : FVec F Ssq .f32 :=
  addf (upper w dv) (diagonal u)

end Cert.DecayMatrix

end
-- ==== Proof.Staged.lean ====
/-
  What the kernel's region finds in the three arrays it stages, as functions of the program's arguments.

  Before the region the host builds the mixing matrix from weight, diag_weight and decay_value (the operations of
  DecayMatrix.lean, one for one) and narrows it to bf16; it views the input x of shape [8, 2048, 2048] as 16384 rows; and
  it views the bias as one row.  Each is read off the fold of the host operations at its buffer.  They hold at any float
  instance.
-/
import proofs.«170594_j12481174962953_1_alg».proof.Proof.Gen.KernelIdeal.Frame
import proofs.«170594_j12481174962953_1_alg».proof.Proof.DecayMatrix
import Idealize.ShloMosaic.Lib.StableHlo.Run

noncomputable section

open Idealize.ShloMosaic Idealize.ShloMosaic.TcCoe Idealize.SL.Sem Idealize.ShloMosaic.StableHlo

namespace Cert.KernelIdeal.Staged

open Cert.KernelIdeal Cert.KernelIdeal.Gen

variable {F : FTy → Type} [FloatOps F]
variable (m : (ℓ : Loc nD τ sig) → Buf (Elt F) ℓ)

set_option maxHeartbeats 1000000 in
/-- The staged matrix is the mixing matrix of the arguments, narrowed to bf16. -/
theorem mat_eq (c : Dev nD) :
    (V m c main_v23 : Vec F S2048x2048 .bf16)
      = truncf .bf16 (Cert.DecayMatrix.matrix (m ((c : Thread nD τ).loc main_arg1)) (m ((c : Thread nD τ).loc main_arg2))
          (m ((c : Thread nD τ).loc main_arg4))) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 1000000 in
/-- The staged input is x viewed as 16384 rows. -/
theorem rows_eq (c : Dev nD) :
    (V m c main_v24 : Vec F S16384x2048 .f32)
      = shapeCast S16384x2048 (m ((c : Thread nD τ).loc main_arg0)) shapeCasts_S8x2048x2048_S16384x2048 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 1000000 in
/-- The staged bias is the bias viewed as one row. -/
theorem bias_eq (c : Dev nD) :
    (V m c main_v25 : Vec F S1x2048 .f32)
      = shapeCast S1x2048 (m ((c : Thread nD τ).loc main_arg3)) shapeCasts_S2048_S1x2048 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

end Cert.KernelIdeal.Staged

end
-- ==== Proof.KernelRun.lean ====
/-
  The idealized kernel program's run, read as a value over the extended reals.

  After the region the host views the output array (16384 rows) as [8, 2048, 2048] again.  The output array is the
  rows-times-matrix-plus-bias function of the three staged arrays (Blocks.lean), those are the flattened input, the
  mixing matrix narrowed to bf16 and the bias row (Staged.lean), and flattening, computing on rows and flattening back is
  the result function `Cert.Mix.mix` of the arguments (Mix.lean, the kernel's arrangement; the narrowing is no change
  over the extended reals).
-/
import proofs.«170594_j12481174962953_1_alg».proof.Proof.Blocks
import proofs.«170594_j12481174962953_1_alg».proof.Proof.Staged
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.ValueRun

open Cert.KernelIdeal Cert.KernelIdeal.Gen Cert.KernelIdeal.Blocks

variable (m : (ℓ : Loc nD τ sig) → Buf (Elt Ideal) ℓ) (ρ : Dev nD → PrngReg)

/-- The result buffer after the line that follows the region: the output array viewed as [8, 2048, 2048]. -/
theorem tail_eq (c : Dev nD) :
    Pipeline.afterTail₀ cfgs (dats m) 0 (V0 m) [hostOps1] c main_v27
      = shapeCast S8x2048x2048 (whole m c) shapeCasts_S16384x2048_S8x2048x2048 := by
  unfold Pipeline.afterTail₀
  show StableHlo.after hostOps1 _ (Proc.devRef .tc main_v27) = _
  after_results
  have e : Pipeline.withArrays (cfgs 0).spec c (V0 m c) (fun w => (dats m 0 c).arrAt w (cfgs 0).N) (Proc.devRef .tc main_v26)
      = whole m c := (Pipeline.withArrays_arr spec0 launch0.win.arr_inj c _ _ 3).trans (final m c)
  rw [e]
  rfl

/-- The viewed-back output is the result function of the arguments. -/
theorem value_eq (c : Dev nD) :
    shapeCast S8x2048x2048 (whole m c) shapeCasts_S16384x2048_S8x2048x2048
      = Cert.Mix.mix (m ((c : Thread nD τ).loc main_arg0))
          (Cert.DecayMatrix.matrix (m ((c : Thread nD τ).loc main_arg1)) (m ((c : Thread nD τ).loc main_arg2))
            (m ((c : Thread nD τ).loc main_arg4)))
          (m ((c : Thread nD τ).loc main_arg3)) := by
  have hr := Cert.KernelIdeal.Staged.rows_eq m c
  have hm := Cert.KernelIdeal.Staged.mat_eq m c
  have hb := Cert.KernelIdeal.Staged.bias_eq m c
  show shapeCast S8x2048x2048 (Cert.Mix.flat (φ := .bf16) (V m c main_v24) (V m c main_v23) (V m c main_v25)) _ = _
  rw [hr, hm, hb]
  exact (Cert.Mix.unflatten (φ := .bf16) _ _ _ _ _ _).trans (Cert.Mix.mix_truncf _ _ _ _)

/-- THE KERNEL PROGRAM'S RUN over the extended reals: every weakly fair execution terminates with the result at the
    result function of the arguments' launch contents, the arguments unchanged. -/
theorem run : θ_run defs (onTc (τ := τ) (main (F := Ideal))) ⟨m, fun _ => 0, ρ⟩ fun r => ∀ c : Dev nD,
      r.2.mem ((c.tc : Thread nD τ).loc main_v27)
          = Cert.Mix.mix (m ((c.tc : Thread nD τ).loc main_arg0))
              (Cert.DecayMatrix.matrix (m ((c.tc : Thread nD τ).loc main_arg1)) (m ((c.tc : Thread nD τ).loc main_arg2))
                (m ((c.tc : Thread nD τ).loc main_arg4)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v27 (Pipeline.mem_restRefs_of main_v27 (by decide) (by decide))).trans ((tail_eq m c).trans (value_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.ValueRun

end
-- ==== Proof.RowsProduct.lean ====
/-
  A stack of row vectors times a matrix, read at an entry over the extended reals.  The left operand has shape
  [B, E, K], the right one [K, N]; the last axis of the left operand is contracted with the first axis of the right
  one and nothing is batched.  Entry (b, e, n) of the host's product is the plain sum over the contracted coordinate x
  of  lhs (b, e, x) · rhs (x, n)  — whatever formats the operands carry.
-/
import Idealize.ShloMosaic.Lib.ValueIdx
import Idealize.ShloMosaic.PureOps.Ideal.Laws

namespace Cert.RowsProduct

open Idealize.ShloMosaic Idealize.ShloMosaic.ValueIdx

variable {B E K N : ℕ}

/-- The dimension numbers: contract axis 2 of the left operand with axis 0 of the right one; the result's axes are the
    left operand's axes 0 and 1, then the right operand's axis 1. -/
abbrev dims (B E K N : ℕ)
    (wf : DotDims.WF (⟨3, ![B, E, K]⟩ : Shape) (⟨2, ![K, N]⟩ : Shape) (⟨3, ![B, E, N]⟩ : Shape) [2] [0] [0, 1] [1] [] []) :
    DotDims ⟨3, ![B, E, K]⟩ ⟨2, ![K, N]⟩ ⟨3, ![B, E, N]⟩ :=
  ⟨[2], [0], [0, 1], [1], [], [], wf⟩

variable (wf : DotDims.WF (⟨3, ![B, E, K]⟩ : Shape) (⟨2, ![K, N]⟩ : Shape) (⟨3, ![B, E, N]⟩ : Shape) [2] [0] [0, 1] [1] [] [])

/-- The left operand is read at the output's first coordinate, … -/
theorem lhs_0 (j : (⟨3, ![B, E, N]⟩ : Shape).Idx) (q : (dims B E K N wf).contr.Idx) :
    ((dims B E K N wf).lhsIdx j q 0).val = (j 0).val := rfl
/-- … at its second coordinate, … -/
theorem lhs_1 (j : (⟨3, ![B, E, N]⟩ : Shape).Idx) (q : (dims B E K N wf).contr.Idx) :
    ((dims B E K N wf).lhsIdx j q 1).val = (j 1).val := rfl
/-- … and at the contracted coordinate; -/
theorem lhs_2 (j : (⟨3, ![B, E, N]⟩ : Shape).Idx) (q : (dims B E K N wf).contr.Idx) :
    ((dims B E K N wf).lhsIdx j q 2).val = (q ⟨0, Nat.one_pos⟩).val :=
  (dims B E K N wf).lhsIdx_val_of_single rfl j q
/-- the right operand at the contracted coordinate … -/
theorem rhs_0 (j : (⟨3, ![B, E, N]⟩ : Shape).Idx) (q : (dims B E K N wf).contr.Idx) :
    ((dims B E K N wf).rhsIdx j q 0).val = (q ⟨0, Nat.one_pos⟩).val :=
  (dims B E K N wf).rhsIdx_val_of_single rfl j q
/-- … and at the output's last coordinate. -/
theorem rhs_1 (j : (⟨3, ![B, E, N]⟩ : Shape).Idx) (q : (dims B E K N wf).contr.Idx) :
    ((dims B E K N wf).rhsIdx j q 1).val = (j 2).val := rfl

/-- The sum over the contraction's index set is the sum over the K values of its one coordinate. -/
theorem sum_contr {φ₁ φ₂ : FTy} (lhs : FVec Ideal ⟨3, ![B, E, K]⟩ φ₁) (rhs : FVec Ideal ⟨2, ![K, N]⟩ φ₂)
    (b : Fin B) (e : Fin E) (n : Fin N) :
    (∑ k : (dims B E K N wf).contr.Idx,
        lhs ((dims B E K N wf).lhsIdx (ix3 b e n) k) * rhs ((dims B E K N wf).rhsIdx (ix3 b e n) k))
      = ∑ x : Fin K, lhs (ix3 b e x) * rhs (ix2 x n) := by
  rw [← Equiv.sum_comp (contrEquiv1 (dims B E K N wf) K rfl rfl).symm]
  refine Finset.sum_congr rfl fun k _ => ?_
  have hk := contrEquiv1_symm_val (dims B E K N wf) K rfl rfl k
  have el : (dims B E K N wf).lhsIdx (ix3 b e n) ((contrEquiv1 (dims B E K N wf) K rfl rfl).symm k) = ix3 b e k :=
    funext fun a => Fin.ext (by
      match a with
      | ⟨0, _⟩ => exact lhs_0 wf _ _
      | ⟨1, _⟩ => exact lhs_1 wf _ _
      | ⟨2, _⟩ => exact (lhs_2 wf _ _).trans hk)
  have er : (dims B E K N wf).rhsIdx (ix3 b e n) ((contrEquiv1 (dims B E K N wf) K rfl rfl).symm k) = ix2 k n :=
    funext fun a => Fin.ext (by
      match a with
      | ⟨0, _⟩ => exact (rhs_0 wf _ _).trans hk
      | ⟨1, _⟩ => exact rhs_1 wf _ _)
  rw [el, er]

/-- The host's product at (b, e, n). -/
theorem dotGeneral_apply {φ₁ φ₂ : FTy} (prec : Option ContractPrecision)
    (lhs : FVec Ideal ⟨3, ![B, E, K]⟩ φ₁) (rhs : FVec Ideal ⟨2, ![K, N]⟩ φ₂) (b : Fin B) (e : Fin E) (n : Fin N) :
    Host.dotGeneral (F := Ideal) (dims B E K N wf) prec lhs rhs (ix3 b e n)
      = ∑ x : Fin K, lhs (ix3 b e x) * rhs (ix2 x n) := by
  simp only [Host.dotGeneral]
  exact (Ideal.dotGeneral_apply (dims B E K N wf) prec _ lhs rhs (ix3 b e n)).trans (sum_contr wf lhs rhs b e n)

end Cert.RowsProduct
-- ==== Proof.RefRun.lean ====
/-
  The reference program's run, read back by hand.

  Its @main is a straight line of 47 host operations once the four module-local functions it calls are opened at their
  calls (the clip of the decay value: four operations; the select that keeps the strict upper triangle: two; the
  diagonal embedding, thirteen, the last three of them the inner select it calls in turn).  Listed in order, the run
  of the line is the fold of the operations over the launch contents, and the fold read at the result buffer is

      (x · M(weight, diag_weight, decay_value)) + bias broadcast along the last axis,

  with M the mixing matrix of DecayMatrix.lean — the operations that build it are that definition's, one for one — and
  the product the host's contraction of x's last axis with M's first.  Over the extended reals that is the function
  `Cert.Mix.mix` (Mix.lean, the reference's arrangement; RowsProduct.lean reads the product at an entry).
-/
import proofs.«170594_j12481174962953_1_alg».proof.Proof.Gen.ReferenceIdeal
import proofs.«170594_j12481174962953_1_alg».proof.Proof.DecayMatrix
import proofs.«170594_j12481174962953_1_alg».proof.Proof.Mix
import proofs.«170594_j12481174962953_1_alg».proof.Proof.RowsProduct
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 47 operations in order, the called functions' operations in place of their calls. -/
abbrev ops : List (HloOp τ sig (Elt F)) :=
  [ StableHlo.reshape main_arg1 main_v0 rfl shapeCasts_S1x2048_S2048,
    StableHlo.reshape main_arg2 main_v1 rfl shapeCasts_S1x2048_S2048,
    StableHlo.nullary main_v2 (iotaInDim S2048 32 0),
    StableHlo.unary main_v2 main_v3 (broadcastInDim S1x2048 ![1] bcast_S2048_S1x2048_1 : (⟨S2048, .i32⟩ : BufTy).Contents (Elt F) → (⟨S1x2048, .i32⟩ : BufTy).Contents (Elt F)),
    StableHlo.unary main_v2 main_v4 (broadcastInDim S2048x1 ![0] bcast_S2048_S2048x1_0 : (⟨S2048, .i32⟩ : BufTy).Contents (Elt F) → (⟨S2048x1, .i32⟩ : BufTy).Contents (Elt F)),
    StableHlo.unary main_v3 main_v5 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v4 main_v6 (broadcastInDim S2048x2048 ![0, 1] bcast_S2048x1_S2048x2048_0_1 : (⟨S2048x1, .i32⟩ : BufTy).Contents (Elt F) → (⟨S2048x2048, .i32⟩ : BufTy).Contents (Elt F)),
    StableHlo.binary main_v5 main_v6 main_v7 (subi : (⟨S2048x2048, .i32⟩ : BufTy).Contents (Elt F) → (⟨S2048x2048, .i32⟩ : BufTy).Contents (Elt F) → (⟨S2048x2048, .i32⟩ : BufTy).Contents (Elt F)),
    StableHlo.unary main_arg4 main_v8 ((extractStridedSlice S1x1 ![1, 0] · slices_S2x1_S1x1_1_0) : (⟨S2x1, .f32⟩ : BufTy).Contents (Elt F) → (⟨S1x1, .f32⟩ : BufTy).Contents (Elt F)),
    StableHlo.reshape main_v8 main_v9 rfl shapeCasts_S1x1_S_,
    StableHlo.nullary main_cst (constant S_ .f32 0x3F666666#32),
    StableHlo.nullary main_cst_0 (constant S_ .f32 0x3F800000#32),
    StableHlo.TRef.unary (.of main_cst : StableHlo.TRef sig ⟨S_, .f32⟩) (.of main_call0_v0 : StableHlo.TRef sig ⟨S_, .f32⟩) id,
    StableHlo.TRef.binary (.of main_call0_v0 : StableHlo.TRef sig ⟨S_, .f32⟩) (.of main_v9 : StableHlo.TRef sig ⟨S_, .f32⟩) (.of main_call0_v1 : StableHlo.TRef sig ⟨S_, .f32⟩) maximumf,
    StableHlo.TRef.unary (.of main_cst_0 : StableHlo.TRef sig ⟨S_, .f32⟩) (.of main_call0_v2 : StableHlo.TRef sig ⟨S_, .f32⟩) id,
    StableHlo.TRef.binary (.of main_call0_v2 : StableHlo.TRef sig ⟨S_, .f32⟩) (.of main_call0_v1 : StableHlo.TRef sig ⟨S_, .f32⟩) (.of main_v10 : StableHlo.TRef sig ⟨S_, .f32⟩) minimumf,
    StableHlo.nullary main_c (constantI S_ 32 0#32),
    StableHlo.unary main_c main_v11 (broadcastInDim S2048x2048 ![] bcast_S_S2048x2048 : (⟨S_, .i32⟩ : BufTy).Contents (Elt F) → (⟨S2048x2048, .i32⟩ : BufTy).Contents (Elt F)),
    StableHlo.binary main_v7 main_v11 main_v12 (cmpi .sgt : (⟨S2048x2048, .i32⟩ : BufTy).Contents (Elt F) → (⟨S2048x2048, .i32⟩ : BufTy).Contents (Elt F) → (⟨S2048x2048, .i1⟩ : BufTy).Contents (Elt F)),
    StableHlo.unary main_v0 main_v13 (broadcastInDim S2048x1 ![0] bcast_S2048_S2048x1_0 : (⟨S2048, .f32⟩ : BufTy).Contents (Elt F) → (⟨S2048x1, .f32⟩ : BufTy).Contents (Elt F)),
    StableHlo.unary main_v7 main_v14 (sitofp .f32 : (⟨S2048x2048, .i32⟩ : BufTy).Contents (Elt F) → (⟨S2048x2048, .f32⟩ : BufTy).Contents (Elt F)),
    StableHlo.unary main_v7 main_v15 (sitofp .f32 : (⟨S2048x2048, .i32⟩ : BufTy).Contents (Elt F) → (⟨S2048x2048, .f32⟩ : BufTy).Contents (Elt F)),
    StableHlo.unary main_v10 main_v16 (broadcastInDim S2048x2048 ![] bcast_S_S2048x2048 : (⟨S_, .f32⟩ : BufTy).Contents (Elt F) → (⟨S2048x2048, .f32⟩ : BufTy).Contents (Elt F)),
    StableHlo.binary main_v16 main_v15 main_v17 (Host.powf : (⟨S2048x2048, .f32⟩ : BufTy).Contents (Elt F) → (⟨S2048x2048, .f32⟩ : BufTy).Contents (Elt F) → (⟨S2048x2048, .f32⟩ : BufTy).Contents (Elt F)),
    StableHlo.unary main_v13 main_v18 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v18 main_v17 main_v19 (mulf : (⟨S2048x2048, .f32⟩ : BufTy).Contents (Elt F) → (⟨S2048x2048, .f32⟩ : BufTy).Contents (Elt F) → (⟨S2048x2048, .f32⟩ : BufTy).Contents (Elt F)),
    StableHlo.nullary main_cst_1 (constant S_ .f32 0x00000000#32),
    StableHlo.TRef.unary (.of main_cst_1 : StableHlo.TRef sig ⟨S_, .f32⟩) (.of main_call1_v0 : StableHlo.TRef sig ⟨S2048x2048, .f32⟩) (broadcastInDim S2048x2048 ![] bcast_S_S2048x2048),
    StableHlo.TRef.ternary (.of main_v12 : StableHlo.TRef sig ⟨S2048x2048, .i1⟩) (.of main_v19 : StableHlo.TRef sig ⟨S2048x2048, .f32⟩) (.of main_call1_v0 : StableHlo.TRef sig ⟨S2048x2048, .f32⟩) (.of main_v20 : StableHlo.TRef sig ⟨S2048x2048, .f32⟩) select,
    StableHlo.TRef.nullary (.of main_call2_cst : StableHlo.TRef sig ⟨S_, .f32⟩) (constant S_ .f32 0x00000000#32),
    StableHlo.TRef.binary (.of main_v1 : StableHlo.TRef sig ⟨S2048, .f32⟩) (.of main_call2_cst : StableHlo.TRef sig ⟨S_, .f32⟩) (.of main_call2_v0 : StableHlo.TRef sig ⟨S2048, .f32⟩) (fun x v => pad S2048 ![0] ![0] ![0] x v pads_S2048_S2048_000 h_S_),
    StableHlo.TRef.nullary (.of main_call2_v1 : StableHlo.TRef sig ⟨S2048x2048, .i32⟩) (iotaInDim S2048x2048 32 0),
    StableHlo.TRef.nullary (.of main_call2_v2 : StableHlo.TRef sig ⟨S2048x2048, .i32⟩) (iotaInDim S2048x2048 32 1),
    StableHlo.TRef.nullary (.of main_call2_c : StableHlo.TRef sig ⟨S_, .i32⟩) (constantI S_ 32 0#32),
    StableHlo.TRef.unary (.of main_call2_c : StableHlo.TRef sig ⟨S_, .i32⟩) (.of main_call2_v3 : StableHlo.TRef sig ⟨S2048x2048, .i32⟩) (broadcastInDim S2048x2048 ![] bcast_S_S2048x2048),
    StableHlo.TRef.binary (.of main_call2_v1 : StableHlo.TRef sig ⟨S2048x2048, .i32⟩) (.of main_call2_v3 : StableHlo.TRef sig ⟨S2048x2048, .i32⟩) (.of main_call2_v4 : StableHlo.TRef sig ⟨S2048x2048, .i32⟩) addi,
    StableHlo.TRef.binary (.of main_call2_v4 : StableHlo.TRef sig ⟨S2048x2048, .i32⟩) (.of main_call2_v2 : StableHlo.TRef sig ⟨S2048x2048, .i32⟩) (.of main_call2_v5 : StableHlo.TRef sig ⟨S2048x2048, .i1⟩) (cmpi .eq),
    StableHlo.TRef.unary (.of main_call2_v0 : StableHlo.TRef sig ⟨S2048, .f32⟩) (.of main_call2_v6 : StableHlo.TRef sig ⟨S2048x1, .f32⟩) (broadcastInDim S2048x1 ![0] bcast_S2048_S2048x1_0),
    StableHlo.TRef.nullary (.of main_call2_cst_0 : StableHlo.TRef sig ⟨S_, .f32⟩) (constant S_ .f32 0x00000000#32),
    StableHlo.TRef.unary (.of main_call2_v6 : StableHlo.TRef sig ⟨S2048x1, .f32⟩) (.of main_call2_call0_v0 : StableHlo.TRef sig ⟨S2048x2048, .f32⟩) (broadcastInDim S2048x2048 ![0, 1] bcast_S2048x1_S2048x2048_0_1),
    StableHlo.TRef.unary (.of main_call2_cst_0 : StableHlo.TRef sig ⟨S_, .f32⟩) (.of main_call2_call0_v1 : StableHlo.TRef sig ⟨S2048x2048, .f32⟩) (broadcastInDim S2048x2048 ![] bcast_S_S2048x2048),
    StableHlo.TRef.ternary (.of main_call2_v5 : StableHlo.TRef sig ⟨S2048x2048, .i1⟩) (.of main_call2_call0_v0 : StableHlo.TRef sig ⟨S2048x2048, .f32⟩) (.of main_call2_call0_v1 : StableHlo.TRef sig ⟨S2048x2048, .f32⟩) (.of main_v21 : StableHlo.TRef sig ⟨S2048x2048, .f32⟩) select,
    StableHlo.binary main_v20 main_v21 main_v22 (addf : (⟨S2048x2048, .f32⟩ : BufTy).Contents (Elt F) → (⟨S2048x2048, .f32⟩ : BufTy).Contents (Elt F) → (⟨S2048x2048, .f32⟩ : BufTy).Contents (Elt F)),
    StableHlo.binary main_arg0 main_v22 main_v23 ((fun l r => Host.dotGeneral dot_S8x2048x2048_S2048x2048_S8x2048x2048_2_0_01_1_n_n none l r) : (⟨S8x2048x2048, .f32⟩ : BufTy).Contents (Elt F) → (⟨S2048x2048, .f32⟩ : BufTy).Contents (Elt F) → (⟨S8x2048x2048, .f32⟩ : BufTy).Contents (Elt F)),
    StableHlo.unary main_arg3 main_v24 (broadcastInDim S1x1x2048 ![2] bcast_S2048_S1x1x2048_2 : (⟨S2048, .f32⟩ : BufTy).Contents (Elt F) → (⟨S1x1x2048, .f32⟩ : BufTy).Contents (Elt F)),
    StableHlo.unary main_v24 main_v25 (broadcastInDim S8x2048x2048 ![0, 1, 2] bcast_S1x1x2048_S8x2048x2048_0_1_2 : (⟨S1x1x2048, .f32⟩ : BufTy).Contents (Elt F) → (⟨S8x2048x2048, .f32⟩ : BufTy).Contents (Elt F)),
    StableHlo.binary main_v23 main_v25 main_v26 (addf : (⟨S8x2048x2048, .f32⟩ : BufTy).Contents (Elt F) → (⟨S8x2048x2048, .f32⟩ : BufTy).Contents (Elt F) → (⟨S8x2048x2048, .f32⟩ : BufTy).Contents (Elt F)) ]

-- forty-seven binds re-associated: the rewrite under the chain recurses once per statement
set_option maxRecDepth 2048 in
/-- @main is that straight line: the functions' definitions opened at their calls, both sides are one chain of
    steps once sequencing is re-associated. -/
theorem main_eq (c : Dev nD) : main (F := F) c = seq ops := by
  simp only [main, fn_clip.body, fn_where.body, fn_where_0.body, fn_diag.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., reshape_bufs_sub .., nullary_bufs_sub .., unary_bufs_sub .., unary_bufs_sub .., unary_bufs_sub ..,
    unary_bufs_sub .., binary_bufs_sub .., unary_bufs_sub .., reshape_bufs_sub .., nullary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., unary_bufs_sub .., unary_bufs_sub .., binary_bufs_sub ..,
    unary_bufs_sub .., binary_bufs_sub .., nullary_bufs_sub .., unary_bufs_sub .., ternary_bufs_sub .., nullary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., unary_bufs_sub .., ternary_bufs_sub ..,
    binary_bufs_sub .., binary_bufs_sub .., unary_bufs_sub .., unary_bufs_sub .., binary_bufs_sub ..⟩

/-- Every weakly fair execution of @main terminates, each buffer ending at the fold of the operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments -/

set_option maxHeartbeats 1000000 in
/-- At the result buffer the fold is the host's product of x with the mixing matrix, plus the bias broadcast along the
    last axis: each operation's result read where it is written, every other buffer passed over. -/
theorem out_eq (V : Valuation τ sig (Elt F)) :
    after ops V (main_v26 : DevRef τ sig)
      = addf (Host.dotGeneral dot_S8x2048x2048_S2048x2048_S8x2048x2048_2_0_01_1_n_n none (V (main_arg0 : DevRef τ sig))
            (Cert.DecayMatrix.matrix (V (main_arg1 : DevRef τ sig)) (V (main_arg2 : DevRef τ sig)) (V (main_arg4 : DevRef τ sig))))
          (broadcastInDim S8x2048x2048 ![0, 1, 2] bcast_S1x1x2048_S8x2048x2048_0_1_2
            (broadcastInDim S1x1x2048 ![2] bcast_S2048_S1x1x2048_2 (V (main_arg3 : DevRef τ sig)))) := by
  after_results_simp
  rfl

set_option maxHeartbeats 1000000 in
theorem arg0_eq (V : Valuation τ sig (Elt F)) : after ops V (main_arg0 : DevRef τ sig) = V (main_arg0 : DevRef τ sig) := by
  after_results_simp
set_option maxHeartbeats 1000000 in
theorem arg1_eq (V : Valuation τ sig (Elt F)) : after ops V (main_arg1 : DevRef τ sig) = V (main_arg1 : DevRef τ sig) := by
  after_results_simp
set_option maxHeartbeats 1000000 in
theorem arg2_eq (V : Valuation τ sig (Elt F)) : after ops V (main_arg2 : DevRef τ sig) = V (main_arg2 : DevRef τ sig) := by
  after_results_simp
set_option maxHeartbeats 1000000 in
theorem arg3_eq (V : Valuation τ sig (Elt F)) : after ops V (main_arg3 : DevRef τ sig) = V (main_arg3 : DevRef τ sig) := by
  after_results_simp
set_option maxHeartbeats 1000000 in
theorem arg4_eq (V : Valuation τ sig (Elt F)) : after ops V (main_arg4 : DevRef τ sig) = V (main_arg4 : DevRef τ sig) := by
  after_results_simp

/-! ## The value over the extended reals -/

/-- The printed dimension numbers contract x's last axis with the matrix's first. -/
theorem dims_rows : dot_S8x2048x2048_S2048x2048_S8x2048x2048_2_0_01_1_n_n
    = Cert.RowsProduct.dims 8 2048 2048 2048 dot_S8x2048x2048_S2048x2048_S8x2048x2048_2_0_01_1_n_n_wf := rfl

/-- The host's product plus the broadcast bias is the result function. -/
theorem value_eq (x : FVec Ideal S8x2048x2048 .f32) (M : FVec Ideal S2048x2048 .f32) (bias : FVec Ideal S2048 .f32) :
    addf (Host.dotGeneral (F := Ideal) dot_S8x2048x2048_S2048x2048_S8x2048x2048_2_0_01_1_n_n none x M)
        (broadcastInDim S8x2048x2048 ![0, 1, 2] bcast_S1x1x2048_S8x2048x2048_0_1_2
          (broadcastInDim S1x1x2048 ![2] bcast_S2048_S1x1x2048_2 bias))
      = Cert.Mix.mix x M bias := by
  rw [dims_rows]
  exact Cert.Mix.host_arrangement x M bias _
    (fun b e t => Cert.RowsProduct.dotGeneral_apply dot_S8x2048x2048_S2048x2048_S8x2048x2048_2_0_01_1_n_n_wf none x M b e t) _ _

/-- THE REFERENCE'S RUN over the extended reals: every weakly fair execution terminates with the result at the result
    function of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = Cert.Mix.mix (m ((c.tc : Thread nD τ).loc main_arg0))
              (Cert.DecayMatrix.matrix (m ((c.tc : Thread nD τ).loc main_arg1)) (m ((c.tc : Thread nD τ).loc main_arg2))
                (m ((c.tc : Thread nD τ).loc main_arg4)))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v26).trans ((out_eq (launchContents m c)).trans (value_eq _ _ _)),
        (h c main_arg0).trans (arg0_eq _), (h c main_arg1).trans (arg1_eq _), (h c main_arg2).trans (arg2_eq _),
        (h c main_arg3).trans (arg3_eq _), (h c main_arg4).trans (arg4_eq _)⟩)
    (run_fold m ρ)

end Cert.ReferenceIdeal.HostRun

end
-- ==== Proof.lean ====
/-
  The kernel computes, for an input x of shape [8, 2048, 2048], weights, diagonal weights, a bias and a decay value,

      out(b, e, t) = (Σ_s  x(b, e, s) · M(s, t)) + bias(t),

  where M is the [2048, 2048] mixing matrix with the decaying strict upper triangle  w(i) · d^(j - i)  and the diagonal
  u(i)  (Proof/DecayMatrix.lean).  Both programs build M on the host with the same operations; the kernel then narrows
  it to bf16, views x as 16384 rows, and a pipelined region of 32 grid points multiplies 512 rows at a time by the whole
  matrix and adds the bias row, while the reference contracts x's last axis with M's first in one host product and adds
  the broadcast bias.

  Over the extended reals the narrowing is the identity and a product into a zero accumulator is the plain sum over the
  contracted coordinate, so both results are the one function `Cert.Mix.mix` of the arguments (Proof/Mix.lean): the
  kernel's by reading its tiles (Proof/Tile.lean), tiling the output array with them (Proof/Blocks.lean), reading the
  staged arrays off the host prefix (Proof/Staged.lean) and the view back off the host line after the region
  (Proof/KernelRun.lean); the reference's by reading its straight line of host operations (Proof/RefRun.lean, with
  Proof/RowsProduct.lean for the product at an entry).  The only law used between the two arrangements is the
  re-indexing of rows r = 2048·b + e; nothing needs the inputs to be finite.  The three frames are the generated frame
  of each kernel program and the reference's run with its value dropped; the idealization rewrote no operation.
-/
import proofs.«170594_j12481174962953_1_alg».proof.Defs
import proofs.«170594_j12481174962953_1_alg».proof.Proof.Gen.Kernel
import proofs.«170594_j12481174962953_1_alg».proof.Proof.Gen.Kernel.Skeleton
import proofs.«170594_j12481174962953_1_alg».proof.Proof.Gen.Kernel.Launch
import proofs.«170594_j12481174962953_1_alg».proof.Proof.Gen.Kernel.Points
import proofs.«170594_j12481174962953_1_alg».proof.Proof.Gen.Kernel.Frame
import proofs.«170594_j12481174962953_1_alg».proof.Proof.Gen.KernelIdeal
import proofs.«170594_j12481174962953_1_alg».proof.Proof.Gen.KernelIdeal.Skeleton
import proofs.«170594_j12481174962953_1_alg».proof.Proof.Gen.KernelIdeal.Launch
import proofs.«170594_j12481174962953_1_alg».proof.Proof.Gen.KernelIdeal.Points
import proofs.«170594_j12481174962953_1_alg».proof.Proof.Gen.KernelIdeal.Frame
import proofs.«170594_j12481174962953_1_alg».proof.Proof.Gen.ReferenceIdeal
import proofs.«170594_j12481174962953_1_alg».proof.Proof.Gen.Pre_finite_inputs
import proofs.«170594_j12481174962953_1_alg».proof.Proof.KernelRun
import proofs.«170594_j12481174962953_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run, with the value dropped. -/
theorem frame_referenceIdeal : Cert.frame_ReferenceIdeal := fun m ρ _ =>
  (θ_run Cert.ReferenceIdeal.defs _ _).mono (fun _ h c => (h c).2) (Cert.ReferenceIdeal.HostRun.run m ρ)

/-- The idealization rewrote no operation: nothing to preserve. -/
theorem preserves : Cert.preserves_Kernel_KernelIdeal := trivial

/-- From memories that agree on the arguments both programs end with the result function of those arguments. -/
theorem algebraic : Cert.algebraic_KernelIdeal_ReferenceIdeal := by
  intro m ρ m' ρ' _ hagree
  refine ⟨_, Cert.KernelIdeal.ValueRun.run m ρ, ?_⟩
  refine (θ_run Cert.ReferenceIdeal.defs _ _).mono (fun _ h c => ⟨(h c).1.trans ?_, (h c).2⟩)
    (Cert.ReferenceIdeal.HostRun.run m' ρ')
  obtain ⟨e0, e1, e2, e3, e4⟩ := hagree c
  rw [e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
